-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10000 : Shape := ⟨2, ![8192, 10000]⟩
abbrev S1000x10000 : Shape := ⟨2, ![1000, 10000]⟩
abbrev S_ : Shape := ⟨0, ![]⟩

class Facts : Prop where
  bcast_S_S8192x10000 : S_.BroadcastsInDim S8192x10000 (![] : Fin 0 → Fin S8192x10000.rank)
  reducesTo_S8192x10000_S_d0_1 : S8192x10000.ReducesTo [0, 1] S_
  h_S_ : 0 < S_.numel
  bcast_S_S1000x10000 : S_.BroadcastsInDim S1000x10000 (![] : Fin 0 → Fin S1000x10000.rank)
  reducesTo_S1000x10000_S_d0_1 : S1000x10000.ReducesTo [0, 1] S_

variable [Facts]

def fn {F : FTy → Type} [FloatOps F] (main_arg0 : FVec F S8192x10000 .f32) (main_arg1 : FVec F S1000x10000 .f32) : IVec S_ 1 :=
  let main_v0 : FVec F S8192x10000 .f32 := Host.absf main_arg0
  let main_cst : FVec F S_ .f32 := constant S_ .f32 0x7F800000#32
  let main_v1 : FVec F S8192x10000 .f32 := broadcastInDim S8192x10000 ![] bcast_S_S8192x10000 main_cst
  let main_v2 : IVec S8192x10000 1 := cmpf .olt main_v0 main_v1
  let main_c : IVec S_ 1 := constantI S_ 1 1#1
  let main_v3 : IVec S_ 1 := (fun x v => Host.reduce IntOp.andi x v reducesTo_S8192x10000_S_d0_1 h_S_) main_v2 main_c
  let main_v4 : FVec F S1000x10000 .f32 := Host.absf main_arg1
  let main_cst_0 : FVec F S_ .f32 := constant S_ .f32 0x7F800000#32
  let main_v5 : FVec F S1000x10000 .f32 := broadcastInDim S1000x10000 ![] bcast_S_S1000x10000 main_cst_0
  let main_v6 : IVec S1000x10000 1 := cmpf .olt main_v4 main_v5
  let main_c_1 : IVec S_ 1 := constantI S_ 1 1#1
  let main_v7 : IVec S_ 1 := (fun x v => Host.reduce IntOp.andi x v reducesTo_S1000x10000_S_d0_1 h_S_) main_v6 main_c_1
  let main_v8 : IVec S_ 1 := andi main_v3 main_v7
  main_v8
-- ==== Kernel.lean ====
abbrev S8192x10000 : Shape := ⟨2, ![8192, 10000]⟩
abbrev S1000x10000 : Shape := ⟨2, ![1000, 10000]⟩
abbrev S_ : Shape := ⟨0, ![]⟩
abbrev S8192 : Shape := ⟨1, ![8192]⟩
abbrev S1000 : Shape := ⟨1, ![1000]⟩
abbrev S8192x10112 : Shape := ⟨2, ![8192, 10112]⟩
abbrev S1000x10112 : Shape := ⟨2, ![1000, 10112]⟩
abbrev S8192x1000 : Shape := ⟨2, ![8192, 1000]⟩
abbrev S256x10112 : Shape := ⟨2, ![256, 10112]⟩
abbrev S256x1000 : Shape := ⟨2, ![256, 1000]⟩
abbrev S8192x1 : Shape := ⟨2, ![8192, 1]⟩
abbrev S1x1000 : Shape := ⟨2, ![1, 1000]⟩

abbrev nBuf : Space → Nat
  | .hbm => 24
  | .vmem => 5
  | .smem => 0
  | _ => 0

abbrev bufTy : (tb : Table) → Fin (tcTables nBuf tb) → BufTy
  | .hbm, ⟨0, _⟩ => ⟨S8192x10000, .f32⟩
  | .hbm, ⟨1, _⟩ => ⟨S1000x10000, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S1000, .f32⟩
  | .hbm, ⟨6, _⟩ => ⟨S_, .i32⟩
  | .hbm, ⟨7, _⟩ => ⟨S_, .f32⟩
  | .hbm, ⟨8, _⟩ => ⟨S8192x10112, .f32⟩
  | .hbm, ⟨9, _⟩ => ⟨S8192x10112, .bf16⟩
  | .hbm, ⟨10, _⟩ => ⟨S_, .i32⟩
  | .hbm, ⟨11, _⟩ => ⟨S_, .f32⟩
  | .hbm, ⟨12, _⟩ => ⟨S1000x10112, .f32⟩
  | .hbm, ⟨13, _⟩ => ⟨S1000x10112, .bf16⟩
  | .hbm, ⟨14, _⟩ => ⟨S8192x1000, .f32⟩
  | .hbm, ⟨15, _⟩ => ⟨S8192x1, .f32⟩
  | .hbm, ⟨16, _⟩ => ⟨S1x1000, .f32⟩
  | .hbm, ⟨17, _⟩ => ⟨S8192x1000, .f32⟩
  | .hbm, ⟨18, _⟩ => ⟨S8192x1000, .f32⟩
  | .hbm, ⟨19, _⟩ => ⟨S8192x1000, .f32⟩
  | .hbm, ⟨20, _⟩ => ⟨S_, .f32⟩
  | .hbm, ⟨21, _⟩ => ⟨S8192x1000, .f32⟩
  | .hbm, ⟨22, _⟩ => ⟨S8192x1000, .f32⟩
  | .hbm, ⟨23, _⟩ => ⟨S8192x1000, .f32⟩
  | .local _ .vmem, ⟨0, _⟩ => ⟨S256x10112, .bf16⟩
  | .local _ .vmem, ⟨1, _⟩ => ⟨S256x10112, .bf16⟩
  | .local _ .vmem, ⟨2, _⟩ => ⟨S1000x10112, .bf16⟩
  | .local _ .vmem, ⟨3, _⟩ => ⟨S256x1000, .f32⟩
  | .local _ .vmem, ⟨4, _⟩ => ⟨S256x1000, .f32⟩
  | _, _ => ⟨S8192x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10112 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x10112 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S8192x10000_S8192_d1 : S8192x10000.ReducesTo [1] S8192
  h_S_ : 0 < S_.numel
  reducesTo_S1000x10000_S1000_d1 : S1000x10000.ReducesTo [1] S1000
  pads_S8192x10000_S8192x10112_000_01120 : S8192x10000.Pads (![0, 0] : Fin 2 → Nat) ![0, 112] ![0, 0] S8192x10112
  bitsLt_bf16_f32 : FTy.bits .bf16 < FTy.bits .f32
  pads_S1000x10000_S1000x10112_000_01120 : S1000x10000.Pads (![0, 0] : Fin 2 → Nat) ![0, 112] ![0, 0] S1000x10112
  inb_S256x10112_S256x10112_0_0 : ∀ a, (![0, 0] : Fin 2 → Nat) a + S256x10112.size a ≤ S256x10112.size a
  h_S256x10112 : 0 < S256x10112.numel
  shapeCasts_S256x10112_S256x10112 : S256x10112.ShapeCasts S256x10112
  inb_S1000x10112_S1000x10112_0_0 : ∀ a, (![0, 0] : Fin 2 → Nat) a + S1000x10112.size a ≤ S1000x10112.size a
  h_S1000x10112 : 0 < S1000x10112.numel
  shapeCasts_S1000x10112_S1000x10112 : S1000x10112.ShapeCasts S1000x10112
  inb_S256x1000_S256x1000_0_0 : ∀ a, (![0, 0] : Fin 2 → Nat) a + S256x1000.size a ≤ S256x1000.size a
  h_S256x1000 : 0 < S256x1000.numel
  bcast_S8192_S8192x1_0 : S8192.BroadcastsInDim S8192x1 (![0] : Fin 1 → Fin S8192x1.rank)
  bcast_S1000_S1x1000_1 : S1000.BroadcastsInDim S1x1000 (![1] : Fin 1 → Fin S1x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S256x10112_S1000x10112_S256x1000_1_1_0_0_n_n_wf : DotDims.WF S256x10112 S1000x10112 S256x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10112.size a ≤ S8192x10112.size a
  hwx0_0 : ∀ i : grid0.Coords, EltTy.bits .bf16 = 32 ∨ (Rect.block (s := S8192x10112) S256x10112.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x10112.size a ≤ S1000x10112.size a
  hwx0_1 : ∀ i : grid0.Coords, EltTy.bits .bf16 = 32 ∨ (Rect.block (s := S1000x10112) S1000x10112.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1000.size a ≤ S8192x1000.size a
  hwx0_2 : ∀ i : grid0.Coords, EltTy.bits .f32 = 32 ∨ (Rect.block (s := S8192x1000) S256x1000.size (cc0_transform_2 i) (hinb0_2 i)).WholeWords (EltTy.packing .f32)

variable [Facts₀]

def dot_S256x10112_S1000x10112_S256x1000_1_1_0_0_n_n : DotDims S256x10112 S1000x10112 S256x1000 where
  lhsContracting := [1]
  rhsContracting := [1]
  lhsNonContracting := [0]
  rhsNonContracting := [0]
  lhsBatch := []
  rhsBatch := []
  wf := dot_S256x10112_S1000x10112_S256x1000_1_1_0_0_n_n_wf

abbrev win0_0 : Pipeline.Window sig grid0 :=
  Pipeline.Window.ofSpec (Memref.whole main_v3) S256x10112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1000x10112.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x10000 : Shape := ⟨2, ![8192, 10000]⟩
abbrev S1000x10000 : Shape := ⟨2, ![1000, 10000]⟩
abbrev S_ : Shape := ⟨0, ![]⟩
abbrev S8192 : Shape := ⟨1, ![8192]⟩
abbrev S1000 : Shape := ⟨1, ![1000]⟩
abbrev S8192x1000 : Shape := ⟨2, ![8192, 1000]⟩
abbrev S8192x1 : Shape := ⟨2, ![8192, 1]⟩
abbrev S1x1000 : Shape := ⟨2, ![1, 1000]⟩

abbrev nBuf : Space → Nat
  | .hbm => 16
  | .vmem => 0
  | .smem => 0
  | _ => 0

abbrev bufTy : (tb : Table) → Fin (tcTables nBuf tb) → BufTy
  | .hbm, ⟨0, _⟩ => ⟨S8192x10000, .f32⟩
  | .hbm, ⟨1, _⟩ => ⟨S1000x10000, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S1000, .f32⟩
  | .hbm, ⟨6, _⟩ => ⟨S8192x1000, .f32⟩
  | .hbm, ⟨7, _⟩ => ⟨S8192x1, .f32⟩
  | .hbm, ⟨8, _⟩ => ⟨S1x1000, .f32⟩
  | .hbm, ⟨9, _⟩ => ⟨S8192x1000, .f32⟩
  | .hbm, ⟨10, _⟩ => ⟨S8192x1000, .f32⟩
  | .hbm, ⟨11, _⟩ => ⟨S8192x1000, .f32⟩
  | .hbm, ⟨12, _⟩ => ⟨S_, .f32⟩
  | .hbm, ⟨13, _⟩ => ⟨S8192x1000, .f32⟩
  | .hbm, ⟨14, _⟩ => ⟨S8192x1000, .f32⟩
  | .hbm, ⟨15, _⟩ => ⟨S8192x1000, .f32⟩
  | _, _ => ⟨S8192x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  reducesTo_S8192x10000_S8192_d1 : S8192x10000.ReducesTo [1] S8192
  h_S_ : 0 < S_.numel
  reducesTo_S1000x10000_S1000_d1 : S1000x10000.ReducesTo [1] S1000
  bcast_S8192_S8192x1_0 : S8192.BroadcastsInDim S8192x1 (![0] : Fin 1 → Fin S8192x1.rank)
  bcast_S1000_S1x1000_1 : S1000.BroadcastsInDim S1x1000 (![1] : Fin 1 → Fin S1x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x10000_S1000x10000_S8192x1000_1_1_0_0_n_n_wf : DotDims.WF S8192x10000 S1000x10000 S8192x1000 [1] [1] [0] [0] [] []

variable [Facts₀]

def dot_S8192x10000_S1000x10000_S8192x1000_1_1_0_0_n_n : DotDims S8192x10000 S1000x10000 S8192x1000 where
  lhsContracting := [1]
  rhsContracting := [1]
  lhsNonContracting := [0]
  rhsNonContracting := [0]
  lhsBatch := []
  rhsBatch := []
  wf := dot_S8192x10000_S1000x10000_S8192x1000_1_1_0_0_n_n_wf

class Facts : Prop extends Facts₀ where

variable [Facts]
-- ==== Proof.HostSide.lean ====
/-
  The host operations around the kernel region, read back. Before the region: the two row sums (each argument
  summed along its columns from an initial zero), and each argument padded on the right with 112 columns of the
  integer zero converted to a float, then narrowed to sixteen bits — these two padded arrays are what the region's
  two input windows stage. After the region: the result is
  (row sums of the samples, broadcast along columns) + (row sums of the classes, broadcast along rows)
  − 2 · (the array the region wrote), over the arrays as the region left them.
-/
import proofs.«147384_j32873679684016_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The first window's array at the region's entry: the samples, zero-padded to 10112 columns, narrowed. -/
theorem samples_padded (c : Dev nD) : (V m c main_v3 : FVec F S8192x10112 .bf16)
    = truncf .bf16 (pad S8192x10112 ![0, 0] ![0, 112] ![0, 0] (m ((c : Thread nD τ).loc main_arg0)) (sitofp .f32 (constantI S_ 32 0#32)) pads_S8192x10000_S8192x10112_000_01120 h_S_) bitsLt_bf16_f32 := by
  dsimp only [V, V0]
  simp only [hostOps0, hostOps0_1, hostOps0_2, hostOps0_3, hostOps0_4, List.flatten_cons, List.flatten_nil, List.append_nil, List.cons_append, List.nil_append]
  after_results
  all_goals rfl

/-- The second window's array at the region's entry: the classes, zero-padded to 10112 columns, narrowed. -/
theorem classes_padded (c : Dev nD) : (V m c main_v5 : FVec F S1000x10112 .bf16)
    = truncf .bf16 (pad S1000x10112 ![0, 0] ![0, 112] ![0, 0] (m ((c : Thread nD τ).loc main_arg1)) (sitofp .f32 (constantI S_ 32 0#32)) pads_S1000x10000_S1000x10112_000_01120 h_S_) bitsLt_bf16_f32 := by
  dsimp only [V, V0]
  simp only [hostOps0, hostOps0_1, hostOps0_2, hostOps0_3, hostOps0_4, List.flatten_cons, List.flatten_nil, List.append_nil, List.cons_append, List.nil_append]
  after_results
  all_goals rfl

/-- The samples' row sums, computed before the region. -/
theorem samples_rowsum (c : Dev nD) : (V m c main_v0 : FVec F S8192 .f32)
    = Host.reduceAdd (m ((c : Thread nD τ).loc main_arg0)) (constant S_ .f32 0x00000000#32) reducesTo_S8192x10000_S8192_d1 h_S_ := by
  dsimp only [V, V0]
  simp only [hostOps0, hostOps0_1, hostOps0_2, hostOps0_3, hostOps0_4, List.flatten_cons, List.flatten_nil, List.append_nil, List.cons_append, List.nil_append]
  after_results
  all_goals rfl

/-- The classes' row sums, computed before the region. -/
theorem classes_rowsum (c : Dev nD) : (V m c main_v1 : FVec F S1000 .f32)
    = Host.reduceAdd (m ((c : Thread nD τ).loc main_arg1)) (constant S_ .f32 0x00000000#32) reducesTo_S1000x10000_S1000_d1 h_S_ := by
  dsimp only [V, V0]
  simp only [hostOps0, hostOps0_1, hostOps0_2, hostOps0_3, hostOps0_4, List.flatten_cons, List.flatten_nil, List.append_nil, List.cons_append, List.nil_append]
  after_results
  all_goals rfl

/-- The program's result after the lines that follow the region: the two broadcast row sums added, less twice the
    array the region wrote. -/
theorem result_after (c : Dev nD) :
    Pipeline.afterTail₀ cfgs (dats m) 0 (V0 m) [hostOps1] c main_v14
      = subf
          (addf
            (broadcastInDim S8192x1000 ![0, 1] bcast_S8192x1_S8192x1000_0_1
              (broadcastInDim S8192x1 ![0] bcast_S8192_S8192x1_0
                (Host.reduceAdd (m ((c : Thread nD τ).loc main_arg0)) (constant S_ .f32 0x00000000#32) reducesTo_S8192x10000_S8192_d1 h_S_)))
            (broadcastInDim S8192x1000 ![0, 1] bcast_S1x1000_S8192x1000_0_1
              (broadcastInDim S1x1000 ![1] bcast_S1000_S1x1000_1
                (Host.reduceAdd (m ((c : Thread nD τ).loc main_arg1)) (constant S_ .f32 0x00000000#32) reducesTo_S1000x10000_S1000_d1 h_S_))))
          (mulf (broadcastInDim S8192x1000 ![] bcast_S_S8192x1000 (constant S_ .f32 0x40000000#32))
            ((dats m 0 c).arrAt 2 cfg0.N)) := by
  have h0 : Pipeline.withArrays (cfgs 0).spec c (V0 m c) (fun w => (dats m 0 c).arrAt w (cfgs 0).N) (Proc.devRef .tc main_v0) = V m c main_v0 :=
    Pipeline.withArrays_of_ne _ c (V0 m c) _ main_v0 (by exact (by decide : ∀ w, Pipeline.arrRef spec0 w ≠ main_v0))
  have h1 : Pipeline.withArrays (cfgs 0).spec c (V0 m c) (fun w => (dats m 0 c).arrAt w (cfgs 0).N) (Proc.devRef .tc main_v1) = V m c main_v1 :=
    Pipeline.withArrays_of_ne _ c (V0 m c) _ main_v1 (by exact (by decide : ∀ w, Pipeline.arrRef spec0 w ≠ main_v1))
  have h6 : Pipeline.withArrays (cfgs 0).spec c (V0 m c) (fun w => (dats m 0 c).arrAt w (cfgs 0).N) (Proc.devRef .tc main_v6) = (dats m 0 c).arrAt 2 cfg0.N :=
    Pipeline.withArrays_arr spec0 launch0.win.arr_inj c _ _ 2
  unfold Pipeline.afterTail₀
  show StableHlo.after hostOps1 _ (Proc.devRef .tc main_v14) = _
  after_results
  rw [h0, h1, h6, samples_rowsum, classes_rowsum]

end Cert.KernelIdeal.HostSide

end
-- ==== Proof.BlockProduct.lean ====
/-
  What the kernel body stores, entry by entry. The body loads a 256-row block of the padded samples and the whole
  padded class matrix and stores their product contracted over the 10112 columns, accumulated into zero: entry
  (p, q) of the stored block is the sum over k of x0[p, k] * x1[q, k] on the extended reals. The contraction index
  of the product has one axis, of extent 10112; the sum is re-indexed to that axis's coordinate.
-/
import proofs.«147384_j32873679684016_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The left operand's row is the output's row. -/
theorem lhs_row (i : S256x1000.Idx) (q : dot_S256x10112_S1000x10112_S256x1000_1_1_0_0_n_n.contr.Idx) :
    (dot_S256x10112_S1000x10112_S256x1000_1_1_0_0_n_n.lhsIdx i q 0).val = (i 0).val := by
  unfold DotDims.lhsIdx
  rw [dif_neg (show ¬(0 : Fin S256x10112.rank) ∈ dot_S256x10112_S1000x10112_S256x1000_1_1_0_0_n_n.lhsBatch by decide), dif_pos (show (0 : Fin S256x10112.rank) ∈ dot_S256x10112_S1000x10112_S256x1000_1_1_0_0_n_n.lhsNonContracting by decide)]
  rfl
/-- Its column is the contraction coordinate. -/
theorem lhs_col (i : S256x1000.Idx) (q : dot_S256x10112_S1000x10112_S256x1000_1_1_0_0_n_n.contr.Idx) :
    (dot_S256x10112_S1000x10112_S256x1000_1_1_0_0_n_n.lhsIdx i q 1).val = (q ⟨0, by decide⟩).val :=
  dot_S256x10112_S1000x10112_S256x1000_1_1_0_0_n_n.lhsIdx_val_of_single rfl i q
/-- The right operand's row is the output's column. -/
theorem rhs_row (i : S256x1000.Idx) (q : dot_S256x10112_S1000x10112_S256x1000_1_1_0_0_n_n.contr.Idx) :
    (dot_S256x10112_S1000x10112_S256x1000_1_1_0_0_n_n.rhsIdx i q 0).val = (i 1).val := by
  unfold DotDims.rhsIdx
  rw [dif_neg (show ¬(0 : Fin S1000x10112.rank) ∈ dot_S256x10112_S1000x10112_S256x1000_1_1_0_0_n_n.rhsBatch by decide), dif_pos (show (0 : Fin S1000x10112.rank) ∈ dot_S256x10112_S1000x10112_S256x1000_1_1_0_0_n_n.rhsNonContracting by decide)]
  rfl
/-- Its column is the contraction coordinate. -/
theorem rhs_col (i : S256x1000.Idx) (q : dot_S256x10112_S1000x10112_S256x1000_1_1_0_0_n_n.contr.Idx) :
    (dot_S256x10112_S1000x10112_S256x1000_1_1_0_0_n_n.rhsIdx i q 1).val = (q ⟨0, by decide⟩).val :=
  dot_S256x10112_S1000x10112_S256x1000_1_1_0_0_n_n.rhsIdx_val_of_single rfl i q

/-- Entry `i` of the stored block: the row `i 0` of the first loaded block against the row `i 1` of the second,
    summed over the 10112 columns. -/
theorem stored_apply (x0 : Vec Ideal S256x10112 .bf16) (x1 : Vec Ideal S1000x10112 .bf16) (i : S256x1000.Idx) :
    k0_pay1 (F := Ideal) x0 x1 i = ∑ k : Fin 10112, (x0 (ix2 (i 0) k) : EReal) * (x1 (ix2 (i 1) k) : EReal) := by
  unfold k0_pay1
  simp only [shapeCast_self, matmul]
  rw [Ideal.matmul_constant_zero_apply, ← Equiv.sum_comp (contrEquiv1 dot_S256x10112_S1000x10112_S256x1000_1_1_0_0_n_n 10112 rfl rfl).symm]
  refine Finset.sum_congr rfl fun k _ => ?_
  have hk := contrEquiv1_symm_val dot_S256x10112_S1000x10112_S256x1000_1_1_0_0_n_n 10112 rfl rfl k
  have el : dot_S256x10112_S1000x10112_S256x1000_1_1_0_0_n_n.lhsIdx i ((contrEquiv1 dot_S256x10112_S1000x10112_S256x1000_1_1_0_0_n_n 10112 rfl rfl).symm k) = ix2 (i 0) k := funext fun a => Fin.ext (by
    match a with
    | ⟨0, _⟩ => exact lhs_row _ _
    | ⟨1, _⟩ => exact (lhs_col _ _).trans hk)
  have er : dot_S256x10112_S1000x10112_S256x1000_1_1_0_0_n_n.rhsIdx i ((contrEquiv1 dot_S256x10112_S1000x10112_S256x1000_1_1_0_0_n_n 10112 rfl rfl).symm k) = ix2 (i 1) k := funext fun a => Fin.ext (by
    match a with
    | ⟨0, _⟩ => exact rhs_row _ _
    | ⟨1, _⟩ => exact (rhs_col _ _).trans hk)
  rw [el, er]
  rfl

end Cert.KernelIdeal.BlockProduct

end
-- ==== Proof.RegionArray.lean ====
/-
  The array the kernel region writes. Grid point `t` (of 32) stages rows 256·t … 256·t + 255 of the padded samples
  and, at every point, the whole padded class matrix; it writes back rows 256·t … 256·t + 255 of the output, all 1000
  columns. Since entry (p, q) of a stored block is the product of row p of the samples' block with row q of the
  classes, each written block is the restriction of ONE function of the two padded arrays,
  `cross A B (r, q) = ∑ k < 10112, A[r, k] · B[q, k]`, and the 32 row blocks cover the output: after the region the
  output array is `cross` of the two padded arrays.
-/
import proofs.«147384_j32873679684016_1_alg».proof.Proof.Gen.KernelIdeal.Frame
import proofs.«147384_j32873679684016_1_alg».proof.Proof.BlockProduct
import Idealize.ShloMosaic.Lib.Pipeline.Value
import Idealize.ShloMosaic.Lib.ValueIdx

noncomputable section

namespace Cert.KernelIdeal.RegionArray

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- Every row of `A` against every row of `B`, contracted over the 10112 columns. -/
def cross (A : FVec Ideal S8192x10112 .bf16) (B : FVec Ideal S1000x10112 .bf16) : FVec Ideal S8192x1000 .f32 :=
  fun i => ∑ k : Fin 10112, (A (ix2 (i 0) k) : EReal) * (B (ix2 (i 1) k) : EReal)

/-- The two staged arrays as the region finds them, and the two input blocks at a point, at their literal types. -/
abbrev samplesArr (c : Dev nD) : FVec Ideal S8192x10112 .bf16 := V m c main_v3
abbrev classesArr (c : Dev nD) : FVec Ideal S1000x10112 .bf16 := V m c main_v5
abbrev samplesBlk (c : Dev nD) (t : Fin cfg0.N) : Vec Ideal S256x10112 .bf16 := iblk m c 0 t
abbrev classesBlk (c : Dev nD) (t : Fin cfg0.N) : Vec Ideal S1000x10112 .bf16 := iblk m c 1 t

/-- The block indices over the grid: the samples' and the output's row block is the point, everything else block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The samples' block at point `t` is rows 256·t … of the padded samples. -/
theorem samplesBlk_apply (c : Dev nD) (t : Fin cfg0.N) (y : S256x10112.Idx) (i : S8192x10112.Idx)
    (h0 : (i 0).val = t.val * 256 + (y 0).val) (h1 : (i 1).val = (y 1).val) :
    samplesBlk m c t y = samplesArr m c i := by
  obtain ⟨e0, e1, e2, e3, e4, e5⟩ := block_indices t
  unfold samplesBlk iblk
  rw [View.read_apply]
  show V m c main_v3 _ = V m c main_v3 _
  congr 1
  funext a
  apply Fin.ext
  match a with
  | ⟨0, _⟩ => show win0_0.index t (0 : Fin 2) * 256 + 1 * (y 0).val = (i 0).val; omega
  | ⟨1, _⟩ => show win0_0.index t (1 : Fin 2) * 10112 + 1 * (y 1).val = (i 1).val; omega

/-- The classes' block at every point is the whole padded class matrix. -/
theorem classesBlk_apply (c : Dev nD) (t : Fin cfg0.N) (y : S1000x10112.Idx) (i : S1000x10112.Idx)
    (h0 : (i 0).val = (y 0).val) (h1 : (i 1).val = (y 1).val) :
    classesBlk m c t y = classesArr m c i := by
  obtain ⟨e0, e1, e2, e3, e4, e5⟩ := block_indices t
  unfold classesBlk iblk
  rw [View.read_apply]
  show V m c main_v5 _ = V m c main_v5 _
  congr 1
  funext a
  apply Fin.ext
  match a with
  | ⟨0, _⟩ => show win0_1.index t (0 : Fin 2) * 1000 + 1 * (y 0).val = (i 0).val; omega
  | ⟨1, _⟩ => show win0_1.index t (1 : Fin 2) * 10112 + 1 * (y 1).val = (i 1).val; omega

/-- What point `t` writes back is block `t` of `cross` of the two staged arrays. -/
theorem flushed_eq (c : Dev nD) (t : Fin cfg0.N) :
    (dats m 0 c).flushed 2 t = ((cfg0.win 2).blk t).view.read (Elt Ideal) (cross (samplesArr m c) (classesArr m c)) := by
  show (cfg0.win 2).cut (grid0.coords t) ((dats m 0 c).after 2 t) = _
  rw [after0_2]
  unfold out0_2
  rw [View.canon_unit_zero offsets_zero]
  simp only [View.ld_unit_zero (S := S256x10112) offsets_zero, View.ld_unit_zero (S := S1000x10112) offsets_zero]
  obtain ⟨e0, e1, e2, e3, e4, e5⟩ := block_indices t
  funext j
  refine (BlockProduct.stored_apply (samplesBlk m c t) (classesBlk m c t) j).trans ?_
  rw [View.read_apply]
  unfold cross
  refine Finset.sum_congr rfl fun k _ => ?_
  refine congrArg₂ (fun (a b : EReal) => a * b)
    (samplesBlk_apply m c t (ix2 (j 0) k) (ix2 ((((cfg0.win 2).blk t).view.emb j) 0) k) ?_ rfl)
    (classesBlk_apply m c t (ix2 (j 1) k) (ix2 ((((cfg0.win 2).blk t).view.emb j) 1) k) ?_ rfl)
  · show win0_2.index t (0 : Fin 2) * 256 + 1 * (j 0).val = t.val * 256 + (j 0).val; omega
  · show win0_2.index t (1 : Fin 2) * 1000 + 1 * (j 1).val = (j 1).val; omega

/-- An index of the output is in point `t`'s block iff each coordinate is in the block's range on its axis. -/
theorem mem_blk (t : Fin cfg0.N) (i : S8192x1000.Idx) :
    i ∈ ((cfg0.win 2).blk t).view.set ↔ ∀ a : Fin 2, win0_2.index t a * S256x1000.size a ≤ (i a).val ∧ (i a).val < win0_2.index t a * S256x1000.size a + S256x1000.size a := by
  show i ∈ ((View.whole main_v6).slice (win0_2.rect t)).set ↔ _
  rw [View.set_slice_whole, Rect.mem_set_unit]
  exact Iff.rfl

/-- Row `r` of the output is written by point `r / 256`. -/
theorem covered (i : S8192x1000.Idx) :
    ∃ t : Fin cfg0.N, (cfg0.win 2).flush t = true ∧ i ∈ ((cfg0.win 2).blk t).view.set := by
  have hi0 : (i 0).val < 8192 := (i 0).isLt
  have hi1 : (i 1).val < 1000 := (i 1).isLt
  have hN : cfg0.N = 32 := N_0
  have ht : (i 0).val / 256 < cfg0.N := by rw [hN]; omega
  obtain ⟨e0, e1, e2, e3, e4, e5⟩ := block_indices ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ (0 : Fin 2) * 256 ≤ (i 0).val ∧ (i 0).val < win0_2.index ⟨(i 0).val / 256, ht⟩ (0 : Fin 2) * 256 + 256
    rw [e4]
    show (i 0).val / 256 * 256 ≤ (i 0).val ∧ (i 0).val < (i 0).val / 256 * 256 + 256
    omega
  | ⟨1, _⟩ =>
    show win0_2.index ⟨(i 0).val / 256, ht⟩ (1 : Fin 2) * 1000 ≤ (i 1).val ∧ (i 1).val < win0_2.index ⟨(i 0).val / 256, ht⟩ (1 : Fin 2) * 1000 + 1000
    omega

/-- After the region the output array is `cross` of the two staged arrays. -/
theorem output_array (c : Dev nD) : (dats m 0 c).arrAt 2 cfg0.N = cross (samplesArr m c) (classesArr m c) :=
  (dats m 0 c).arrAt_eq_of_cover 2 (cross (samplesArr m c) (classesArr m c)) (fun t _ => flushed_eq m c t) covered

end Cert.KernelIdeal.RegionArray

end
-- ==== Proof.PaddedSum.lean ====
/-
  Zero padding is invisible to a contraction. A matrix with 10000 columns padded on the right with 112 columns of a
  value `z` reads, in column `k`, the matrix's own entry while `k < 10000` and `z` from there on; and when `z = 0`
  the sum over all 10112 columns of the products of two such rows is the sum over the first 10000 columns, the last
  112 products being `0 * 0`. Only `x + 0 = x` and `0 * 0 = 0` on the extended reals are used, so no entry need
  be finite.
-/
import Idealize.ShloMosaic.Lib.KernelVsHost
import Idealize.ShloMosaic.Lib.ValueIdx

noncomputable section

namespace Cert.PaddedSum

open Idealize.ShloMosaic Idealize.ShloMosaic.ValueIdx

/-- A sum of products over `n + p` terms whose two factors both vanish on the last `p` terms is the sum over
    the first `n`. -/
theorem sum_mul_of_tail_zero {n p : ℕ} (f g : Fin n → EReal) (A B : Fin (n + p) → EReal)
    (hA : ∀ k : Fin n, A (Fin.castAdd p k) = f k) (hA0 : ∀ k : Fin p, A (Fin.natAdd n k) = 0)
    (hB : ∀ k : Fin n, B (Fin.castAdd p k) = g k) (hB0 : ∀ k : Fin p, B (Fin.natAdd n k) = 0) :
    ∑ k, A k * B k = ∑ k, f k * g k := by
  rw [Fin.sum_univ_add]
  simp only [hA, hB, hA0, hB0, mul_zero, Finset.sum_const_zero, add_zero]

variable {α : Type} {R : ℕ}

/-- Inside the matrix the padded matrix is the matrix. -/
theorem pad_cols_inside (x : (⟨2, ![R, 10000]⟩ : Shape).Idx → α) {u : Shape} (v : u.Idx → α)
    (h : Shape.Pads ⟨2, ![R, 10000]⟩ (![0, 0] : Fin 2 → Nat) ![0, 112] ![0, 0] ⟨2, ![R, 10112]⟩) (hu : 0 < u.numel)
    (r : Fin R) (k : Fin 10000) :
    pad ⟨2, ![R, 10112]⟩ ![0, 0] ![0, 112] ![0, 0] x v h hu (ix2 r (Fin.castAdd 112 k)) = x (ix2 r k) :=
  pad_apply_of_inside _ _ _ x v h hu _ (ix2 r k) (fun a => match a with
    | ⟨0, _⟩ => by show r.val = 0 + r.val * (0 + 1); omega
    | ⟨1, _⟩ => by show k.val = 0 + k.val * (0 + 1); omega)

/-- In the 112 added columns it is the padding value. -/
theorem pad_cols_outside (x : (⟨2, ![R, 10000]⟩ : Shape).Idx → α) {u : Shape} (v : u.Idx → α)
    (h : Shape.Pads ⟨2, ![R, 10000]⟩ (![0, 0] : Fin 2 → Nat) ![0, 112] ![0, 0] ⟨2, ![R, 10112]⟩) (hu : 0 < u.numel)
    (r : Fin R) (k : Fin 112) :
    pad ⟨2, ![R, 10112]⟩ ![0, 0] ![0, 112] ![0, 0] x v h hu (ix2 r (Fin.natAdd 10000 k)) = v (Shape.Idx.first hu) :=
  pad_apply_of_not_inside _ _ _ x v h hu _ (1 : Fin 2) (by
    show ¬(0 ≤ 10000 + k.val ∧ (10000 + k.val - 0) % (0 + 1) = 0 ∧ (10000 + k.val - 0) / (0 + 1) < 10000)
    omega)

/-- The integer zero converted to a float, as the padding value of a rank-zero operand, is the extended real `0`. -/
theorem pad_value_zero {S0 : Shape} (hu : 0 < S0.numel) :
    (sitofp (F := Ideal) .f32 (constantI S0 32 0#32) : FVec Ideal S0 .f32) (Shape.Idx.first hu) = 0 :=
  sitofp_zero

/-- The contraction of two zero-padded rows: the 10112-term sum of products is the 10000-term one. -/
theorem sum_pad_mul_pad {R' : ℕ} (x : (⟨2, ![R, 10000]⟩ : Shape).Idx → EReal) (y : (⟨2, ![R', 10000]⟩ : Shape).Idx → EReal)
    {u u' : Shape} (v : u.Idx → EReal) (v' : u'.Idx → EReal)
    (h : Shape.Pads ⟨2, ![R, 10000]⟩ (![0, 0] : Fin 2 → Nat) ![0, 112] ![0, 0] ⟨2, ![R, 10112]⟩) (hu : 0 < u.numel)
    (h' : Shape.Pads ⟨2, ![R', 10000]⟩ (![0, 0] : Fin 2 → Nat) ![0, 112] ![0, 0] ⟨2, ![R', 10112]⟩) (hu' : 0 < u'.numel)
    (hv : v (Shape.Idx.first hu) = 0) (hv' : v' (Shape.Idx.first hu') = 0) (r : Fin R) (q : Fin R') :
    ∑ k : Fin 10112, pad ⟨2, ![R, 10112]⟩ ![0, 0] ![0, 112] ![0, 0] x v h hu (ix2 r k)
        * pad ⟨2, ![R', 10112]⟩ ![0, 0] ![0, 112] ![0, 0] y v' h' hu' (ix2 q k)
      = ∑ k : Fin 10000, x (ix2 r k) * y (ix2 q k) :=
  sum_mul_of_tail_zero (n := 10000) (p := 112) (fun k => x (ix2 r k)) (fun k => y (ix2 q k))
    (fun k => pad ⟨2, ![R, 10112]⟩ ![0, 0] ![0, 112] ![0, 0] x v h hu (ix2 r k))
    (fun k => pad ⟨2, ![R', 10112]⟩ ![0, 0] ![0, 112] ![0, 0] y v' h' hu' (ix2 q k))
    (fun k => pad_cols_inside x v h hu r k) (fun k => (pad_cols_outside x v h hu r k).trans hv)
    (fun k => pad_cols_inside y v' h' hu' q k) (fun k => (pad_cols_outside y v' h' hu' q k).trans hv')

end Cert.PaddedSum

end
-- ==== Proof.Distance.lean ====
/-
  The kernel's result is the reference's. Both programs compute, for samples `a0` (8192 × 10000) and classes `a1`
  (1000 × 10000),  dist[n, c] = (∑_d a0[n, d]) + (∑_d a1[c, d]) − 2 · cross[n, c],  with the same host lines around
  the cross term. The reference's cross term is the product contracted over the 10000 columns. The kernel's is the
  array its region writes: the two arguments zero-padded to 10112 columns, contracted over all 10112. A padded
  column contributes 0 · 0 = 0, so the two cross terms are one array, whatever the entries (infinite ones
  included), and so are the two results.
-/
import proofs.«147384_j32873679684016_1_alg».proof.Proof.HostSide
import proofs.«147384_j32873679684016_1_alg».proof.Proof.RegionArray
import proofs.«147384_j32873679684016_1_alg».proof.Proof.PaddedSum
import proofs.«147384_j32873679684016_1_alg».proof.Proof.Gen.ReferenceIdeal.Run
import proofs.«147384_j32873679684016_1_alg».proof.Proof.Gen.ReferenceIdeal.Read

noncomputable section

open Idealize.ShloMosaic Idealize.ShloMosaic.TcCoe Idealize.SL.Sem Idealize.ShloMosaic.ValueIdx

namespace Cert.Distance

open Cert.ReferenceIdeal Cert.ReferenceIdeal.Gen in
/-- The distance matrix as the reference's lines spell it, over any cross term. -/
def withCross (a0 : FVec Ideal Cert.ReferenceIdeal.S8192x10000 .f32) (a1 : FVec Ideal Cert.ReferenceIdeal.S1000x10000 .f32)
    (x : FVec Ideal Cert.ReferenceIdeal.S8192x1000 .f32) : FVec Ideal Cert.ReferenceIdeal.S8192x1000 .f32 :=
  subf (addf (broadcastInDim S8192x1000 ![0, 1] bcast_S8192x1_S8192x1000_0_1 (broadcastInDim S8192x1 ![0] bcast_S8192_S8192x1_0 (Host.reduceAdd (F := Ideal) a0 (constant (F := Ideal) S_ .f32 0x00000000#32) reducesTo_S8192x10000_S8192_d1 h_S_))) (broadcastInDim S8192x1000 ![0, 1] bcast_S1x1000_S8192x1000_0_1 (broadcastInDim S1x1000 ![1] bcast_S1000_S1x1000_1 (Host.reduceAdd (F := Ideal) a1 (constant (F := Ideal) S_ .f32 0x00000000#32) reducesTo_S1000x10000_S1000_d1 h_S_)))) (mulf (broadcastInDim S8192x1000 ![] bcast_S_S8192x1000 (constant (F := Ideal) S_ .f32 0x40000000#32)) x)

/-- The reference's distance matrix: the cross term its `dot_general`. -/
def dist (a0 : FVec Ideal Cert.ReferenceIdeal.S8192x10000 .f32) (a1 : FVec Ideal Cert.ReferenceIdeal.S1000x10000 .f32) :
    FVec Ideal Cert.ReferenceIdeal.S8192x1000 .f32 :=
  withCross a0 a1 (Host.dotGeneral (F := Ideal) Cert.ReferenceIdeal.dot_S8192x10000_S1000x10000_S8192x1000_1_1_0_0_n_n none a0 a1)

open Cert.KernelIdeal Cert.KernelIdeal.Gen in
/-- The two arguments zero-padded and contracted over 10112 columns are the arguments contracted over 10000. -/
theorem cross_padded (a0 : FVec Ideal Cert.KernelIdeal.S8192x10000 .f32) (a1 : FVec Ideal Cert.KernelIdeal.S1000x10000 .f32) :
    Cert.KernelIdeal.RegionArray.cross
        (truncf .bf16 (pad S8192x10112 ![0, 0] ![0, 112] ![0, 0] a0 (sitofp (F := Ideal) .f32 (constantI S_ 32 0#32)) pads_S8192x10000_S8192x10112_000_01120 h_S_) bitsLt_bf16_f32)
        (truncf .bf16 (pad S1000x10112 ![0, 0] ![0, 112] ![0, 0] a1 (sitofp (F := Ideal) .f32 (constantI S_ 32 0#32)) pads_S1000x10000_S1000x10112_000_01120 h_S_) bitsLt_bf16_f32)
      = Host.dotGeneral (F := Ideal) Cert.ReferenceIdeal.dot_S8192x10000_S1000x10000_S8192x1000_1_1_0_0_n_n none a0 a1 := by
  funext i
  refine Eq.trans ?_ (Cert.ReferenceIdeal.Read.val_main_v2_apply a0 a1 i).symm
  unfold Cert.KernelIdeal.RegionArray.cross
  simp only [truncf_apply]
  refine (Cert.PaddedSum.sum_pad_mul_pad a0 a1 _ _ pads_S8192x10000_S8192x10112_000_01120 h_S_ pads_S1000x10000_S1000x10112_000_01120 h_S_
    (Cert.PaddedSum.pad_value_zero h_S_) (Cert.PaddedSum.pad_value_zero h_S_) (i 0) (i 1)).trans ?_
  refine Finset.sum_congr rfl fun k _ => ?_
  have el : Cert.ReferenceIdeal.Read.lidx_main_v2 i k = ix2 (i 0) k := funext fun a => Fin.ext (by
    match a with
    | ⟨0, _⟩ => rfl
    | ⟨1, _⟩ => rfl)
  have er : Cert.ReferenceIdeal.Read.ridx_main_v2 i k = ix2 (i 1) k := funext fun a => Fin.ext (by
    match a with
    | ⟨0, _⟩ => rfl
    | ⟨1, _⟩ => rfl)
  rw [el, er]
  rfl

end Cert.Distance

namespace Cert.KernelIdeal.KernelValue

open Cert.KernelIdeal Cert.KernelIdeal.Gen

variable (m : (ℓ : Loc nD τ sig) → Buf (Elt Ideal) ℓ) (ρ : Dev nD → PrngReg)

/-- What the kernel program leaves in its result buffer: the reference's distance matrix of its two arguments. -/
theorem result_eq (c : Dev nD) :
    Pipeline.afterTail₀ cfgs (dats m) 0 (V0 m) [hostOps1] c main_v14
      = Cert.Distance.dist (m ((c : Thread nD τ).loc main_arg0)) (m ((c : Thread nD τ).loc main_arg1)) := by
  rw [HostSide.result_after, RegionArray.output_array]
  unfold RegionArray.samplesArr RegionArray.classesArr
  rw [HostSide.samples_padded, HostSide.classes_padded, Cert.Distance.cross_padded]
  rfl

/-- The kernel program's run, read: the result at the distance matrix, the arguments unchanged. -/
theorem run : θ_run defs (onTc (τ := τ) (main (F := Ideal))) ⟨m, fun _ => 0, ρ⟩ fun r => ∀ c : Dev nD,
      r.2.mem ((c.tc : Thread nD τ).loc main_v14) = Cert.Distance.dist (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v14 (Pipeline.mem_restRefs_of main_v14 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelValue

end
-- ==== Proof.lean ====
/-
  Hamming distances in GEMM form. For samples `a0` (8192 × 10000) and class vectors `a1` (1000 × 10000) both programs
  compute  dist[n, c] = (∑_d a0[n, d]) + (∑_d a1[c, d]) − 2 · ∑_d a0[n, d] · a1[c, d].
  The reference takes the cross term with one product over the 10000 columns. The kernel pads both arguments with 112
  zero columns, narrows them to sixteen bits (the identity on the extended reals), and takes the cross term block by
  block on a grid of 32 points: point t multiplies rows 256·t … 256·t + 255 of the padded samples with all the padded
  classes over the 10112 columns and writes those rows of the output. The 32 row blocks tile the output; each entry is
  the 10112-term sum, whose last 112 terms are 0 · 0; so the kernel's cross term is the reference's, and the lines after
  the region are the same in both programs. No entry need be finite: only x + 0 = x and 0 · 0 = 0 are used.

  The three frames are the generated ones (the reference's frame is its generated run with the result dropped); the
  ideal pass rewrote nothing, so the idealized kernel is the kernel's own text and `preserves` holds trivially.
-/
import proofs.«147384_j32873679684016_1_alg».proof.Defs
import proofs.«147384_j32873679684016_1_alg».proof.Proof.Gen.Kernel
import proofs.«147384_j32873679684016_1_alg».proof.Proof.Gen.Kernel.Skeleton
import proofs.«147384_j32873679684016_1_alg».proof.Proof.Gen.Kernel.Launch
import proofs.«147384_j32873679684016_1_alg».proof.Proof.Gen.Kernel.Points
import proofs.«147384_j32873679684016_1_alg».proof.Proof.Gen.Kernel.Frame
import proofs.«147384_j32873679684016_1_alg».proof.Proof.Gen.KernelIdeal
import proofs.«147384_j32873679684016_1_alg».proof.Proof.Gen.KernelIdeal.Skeleton
import proofs.«147384_j32873679684016_1_alg».proof.Proof.Gen.KernelIdeal.Launch
import proofs.«147384_j32873679684016_1_alg».proof.Proof.Gen.KernelIdeal.Points
import proofs.«147384_j32873679684016_1_alg».proof.Proof.Gen.KernelIdeal.Frame
import proofs.«147384_j32873679684016_1_alg».proof.Proof.Gen.ReferenceIdeal
import proofs.«147384_j32873679684016_1_alg».proof.Proof.Gen.ReferenceIdeal.Run
import proofs.«147384_j32873679684016_1_alg».proof.Proof.Gen.ReferenceIdeal.Read
import proofs.«147384_j32873679684016_1_alg».proof.Proof.Gen.Pre_finite_inputs
import proofs.«147384_j32873679684016_1_alg».proof.Proof.Distance
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the distance matrix of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
